-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v20 : BitVec 32 := Scalar.muli arg0 c400_i32
  let v21 : Index := Scalar.indexCast v20
  let c0_11 : Index := 0#32
  ![v21.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .i1⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelPieces.lean ====
/-
  What one grid point of the fused layer kernel leaves behind, as values.

  The kernel walks 25 row blocks of the adjacency matrix. At the first point it stores a narrowed copy of the whole
  feature array into a buffer it keeps between points; at every point it computes, for its 400 rows, the layer's value
  from the adjacency block, that copy, the weights, the bias row and rows 400·i … 400·i + 399 of the feature array (the
  residual). Here each of these stores is read back as the pure function of the loaded arrays that the body computes.
-/
import proofs.«128039_g48773648614066_cont_8to1_c_1084_13_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Rows 400·i … 400·i + 399 of the feature array: the residual's slice at grid point i. -/
abbrev xrows (i : grid0.Coords) (x1 : Vec F S10000x128 .f32) : Vec F S400x128 .f32 :=
  View.ld x1 (Rect.unit (s := S10000x128) (k0_off1 i) S400x128.size (k0_off1_inb i))

/-- At the first grid point the carried buffer is stored whole with the feature array's narrowed copy. -/
theorem sout_A (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S400x128 .f32) (h5 : a5.IsWhole) (a6 : Memref sig .tc .vmem S10000x128 .bf16) (h6 : a6.IsWhole) (hc : cond0_0 i)
    (x0 : Vec F S400x10000 .f32) (x1 : Vec F S10000x128 .f32) (x2 : Vec F S128x128 .f32) (x3 : Vec F S1x128 .f32) :
    sout0_A_0 c i a1 h1 a2 h2 a3 h3 a4 h4 a5 h5 a6 h6 hc x0 x1 x2 x3 = k0_pay1 x1 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero hz]
  simp only [View.readAt_eq_ld, h2.read_unread, View.ld_unit_zero (S := S10000x128) hz]

/-- At the first grid point the output block is the layer's value computed from the copy just stored. -/
theorem out_A (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S400x128 .f32) (h5 : a5.IsWhole) (a6 : Memref sig .tc .vmem S10000x128 .bf16) (h6 : a6.IsWhole) (hc : cond0_0 i)
    (x0 : Vec F S400x10000 .f32) (x1 : Vec F S10000x128 .f32) (x2 : Vec F S128x128 .f32) (x3 : Vec F S1x128 .f32) :
    out0_A_4 c i a1 h1 a2 h2 a3 h3 a4 h4 a5 h5 a6 h6 hc x0 x1 x2 x3 = k0_pay2 x0 (k0_pay1 x1) x2 x3 (xrows i x1) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread,
    View.readCov_unit_zero (S := S10000x128) _ hz,
    View.ld_unit_zero (S := S400x10000) hz, View.ld_unit_zero (S := S10000x128) hz,
    View.ld_unit_zero (S := S128x128) hz, View.ld_unit_zero (S := S1x128) hz]
  rfl

/-- At a later grid point the output block is the layer's value computed from the carried copy `xs`. -/
theorem out_B (c : Dev nD) (i : grid0.Coords) (a1 : Memref sig .tc .vmem S400x10000 .f32) (h1 : a1.IsWhole) (a2 : Memref sig .tc .vmem S10000x128 .f32) (h2 : a2.IsWhole) (a3 : Memref sig .tc .vmem S128x128 .f32) (h3 : a3.IsWhole) (a4 : Memref sig .tc .vmem S1x128 .f32) (h4 : a4.IsWhole) (a5 : Memref sig .tc .vmem S400x128 .f32) (h5 : a5.IsWhole) (a6 : Memref sig .tc .vmem S10000x128 .bf16) (h6 : a6.IsWhole) (hc : ¬cond0_0 i)
    (x0 : Vec F S400x10000 .f32) (x1 : Vec F S10000x128 .f32) (x2 : Vec F S128x128 .f32) (x3 : Vec F S1x128 .f32)
    (xs : Vec F S10000x128 .bf16) :
    out0_B_4 c i a1 h1 a2 h2 a3 h3 a4 h4 a5 h5 a6 h6 hc x0 x1 x2 x3 xs = k0_pay2 x0 xs x2 x3 (xrows i x1) := by
  unfold out0_B_4
  rw [View.read_writes_eq_canon _ _ _ (cover0_B_4 c i a1 h1 a2 h2 a3 h3 a4 h4 a5 h5 a6 h6 hc x0 x1 x2 x3 xs)]
  unfold kernelRun0_B
  dsimp only
  sl_unfold_words
  rw [View.canon_unit_zero hz]
  simp only [View.readAt_eq_ld, h1.read_unread, h2.read_unread, h3.read_unread, h4.read_unread, h6.read_unread,
    View.ld_unit_zero (S := S400x10000) hz, View.ld_unit_zero (S := S10000x128) hz,
    View.ld_unit_zero (S := S128x128) hz, View.ld_unit_zero (S := S1x128) hz]
  rfl

end Cert.KernelIdeal.Pieces

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Spec.lean ====
/-
  The graph-convolution layer as a function of its four arrays, entry by entry, over the extended reals.

  With  x : 10000 × 128,  adj : 10000 × 10000,  W : 128 × 128,  b : 128,  the layer's pre-activation at (r, q) is
  (adj · x · W)(r, q) + b(q), and the result is  act(pre-activation) + x(r, q),  where  act y = y  if  y ≥ 0  and
  c · y  otherwise,  c  the single-precision word nearest 1/100.

  The triple product can be bracketed two ways:
    aggregate first:  Σ_k (Σ_l adj(r, l) · x(l, k)) · W(k, q),
    project first:    Σ_l adj(r, l) · (Σ_k x(l, k) · W(k, q)).
  They agree when every entry is a real number (distributivity and exchanging two finite sums); on the extended reals
  with infinite entries they need not, which is where finiteness of the inputs enters.
-/
import Idealize.ShloMosaic.PureOps.Ideal.Laws
import Idealize.ShloMosaic.Lib.ValueIdx

noncomputable section

namespace Cert.Gcn

open Idealize.ShloMosaic Idealize.ShloMosaic.ValueIdx

abbrev SX : Shape := ⟨2, ![10000, 128]⟩
abbrev SA : Shape := ⟨2, ![10000, 10000]⟩
abbrev SW : Shape := ⟨2, ![128, 128]⟩
abbrev SB : Shape := ⟨1, ![128]⟩

/-- The leaky rectifier (slope: the word 0x3C23D70A below zero) followed by the residual term `r`. -/
def act (y r : EReal) : EReal :=
  Scalar.select (FloatOps.cmpf (F := Ideal) (φ := .f32) .oge y (Ideal.ofBits .f32 0x00000000#32)) y
    (Ideal.ofBits .f32 0x3C23D70A#32 * y) + r

/-- Aggregate over the neighbours first, then project:  Σ_k (Σ_l adj(r, l) · x(l, k)) · W(k, q). -/
def aggProj (x : SX.Idx → EReal) (adj : SA.Idx → EReal) (W : SW.Idx → EReal) (r : Fin 10000) (q : Fin 128) : EReal :=
  ∑ k : Fin 128, (∑ l : Fin 10000, adj (ix2 r l) * x (ix2 l k)) * W (ix2 k q)

/-- Project first, then aggregate:  Σ_l adj(r, l) · (Σ_k x(l, k) · W(k, q)). -/
def projAgg (x : SX.Idx → EReal) (adj : SA.Idx → EReal) (W : SW.Idx → EReal) (r : Fin 10000) (q : Fin 128) : EReal :=
  ∑ l : Fin 10000, adj (ix2 r l) * ∑ k : Fin 128, x (ix2 l k) * W (ix2 k q)

/-- The layer with the product bracketed "aggregate first". -/
def layerAgg (x : SX.Idx → EReal) (adj : SA.Idx → EReal) (W : SW.Idx → EReal) (b : SB.Idx → EReal) : SX.Idx → EReal :=
  fun i => act (aggProj x adj W (i 0) (i 1) + b (ix1 (i 1))) (x i)

/-- The layer with the product bracketed "project first". -/
def layerProj (x : SX.Idx → EReal) (adj : SA.Idx → EReal) (W : SW.Idx → EReal) (b : SB.Idx → EReal) : SX.Idx → EReal :=
  fun i => act (projAgg x adj W (i 0) (i 1) + b (ix1 (i 1))) (x i)

/-- Every entry of an array is a real number. -/
def RealValued {s : Shape} (v : s.Idx → EReal) : Prop := ∀ i, ∃ r : ℝ, v i = (r : EReal)

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals the two bracketings of a triple product agree. -/
theorem real_assoc {L K : Type*} [Fintype L] [Fintype K] (a : L → ℝ) (x : L → K → ℝ) (w : K → ℝ) :
    ∑ k, (∑ l, a l * x l k) * w k = ∑ l, a l * ∑ k, x l k * w k := by
  simp only [Finset.sum_mul, Finset.mul_sum]
  rw [Finset.sum_comm]
  exact Finset.sum_congr rfl fun l _ => Finset.sum_congr rfl fun k _ => by ring

/-- So they agree over the extended reals when every factor is real. -/
theorem ereal_assoc {L K : Type*} [Fintype L] [Fintype K] (a : L → EReal) (x : L → K → EReal) (w : K → EReal)
    (ha : ∀ l, ∃ r : ℝ, a l = (r : EReal)) (hx : ∀ l k, ∃ r : ℝ, x l k = (r : EReal)) (hw : ∀ k, ∃ r : ℝ, w k = (r : EReal)) :
    ∑ k, (∑ l, a l * x l k) * w k = ∑ l, a l * ∑ k, x l k * w k := by
  choose a' ha using ha
  choose x' hx using hx
  choose w' hw using hw
  simp only [ha, hx, hw, ← EReal.coe_mul, ← coe_sum]
  exact congrArg _ (real_assoc a' x' w')

theorem aggProj_eq_projAgg {x : SX.Idx → EReal} {adj : SA.Idx → EReal} {W : SW.Idx → EReal}
    (hx : RealValued x) (ha : RealValued adj) (hW : RealValued W) (r : Fin 10000) (q : Fin 128) :
    aggProj x adj W r q = projAgg x adj W r q :=
  ereal_assoc (fun l => adj (ix2 r l)) (fun l k => x (ix2 l k)) (fun k => W (ix2 k q))
    (fun l => ha _) (fun l k => hx _) (fun k => hW _)

/-- The two forms of the layer agree on real-valued inputs. -/
theorem layerAgg_eq_layerProj {x : SX.Idx → EReal} {adj : SA.Idx → EReal} {W : SW.Idx → EReal} (b : SB.Idx → EReal)
    (hx : RealValued x) (ha : RealValued adj) (hW : RealValued W) :
    layerAgg x adj W b = layerProj x adj W b := by
  funext i
  exact congrArg (fun y => act (y + b (ix1 (i 1))) (x i)) (aggProj_eq_projAgg hx ha hW (i 0) (i 1))

end Cert.Gcn

end
-- ==== Proof.Payload.lean ====
/-
  The kernel body's arithmetic at one entry, over the extended reals.

  For its 400 rows a grid point computes, from an adjacency block  a  (400 × 10000), the kept copy  s  of the feature
  array (10000 × 128), the weights  w  (128 × 128), the bias row  β  (1 × 128) and the residual rows  ρ  (400 × 128):
      act( Σ_k (Σ_l a(p, l) · s(l, k)) · w(k, q) + β(0, q) ) + ρ(p, q).
  Narrowing a value to the shorter float format is the identity on the extended reals, and a matrix product into the
  zero accumulator is the plain finite sum.
-/
import proofs.«128039_g48773648614066_cont_8to1_c_1084_13_alg».proof.Proof.Gen.KernelIdeal.Skeleton
import proofs.«128039_g48773648614066_cont_8to1_c_1084_13_alg».proof.Proof.LibPlainDot
import proofs.«128039_g48773648614066_cont_8to1_c_1084_13_alg».proof.Proof.Spec
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx

/-- The two products' dimension numbers are the plain "rows × contraction times contraction × columns". -/
theorem dims_agg : dot_S400x10000_S10000x128_S400x128_1_0_0_1_n_n = DotDims.plain 400 10000 128 := rfl
theorem dims_proj : dot_S400x128_S128x128_S400x128_1_0_0_1_n_n = DotDims.plain 400 128 128 := rfl

/-- The aggregation product at an entry. -/
theorem agg_apply (l : FVec Ideal S400x10000 .bf16) (r : FVec Ideal S10000x128 .bf16) (j : S400x128.Idx) :
    matmul dot_S400x10000_S10000x128_S400x128_1_0_0_1_n_n none l r (constant S400x128 .f32 0x00000000#32) j
      = ∑ k : Fin 10000, (l (ix2 (j 0) k) : EReal) * (r (ix2 k (j 1)) : EReal) := by
  rw [dims_agg]
  exact Cert.LibPlainDot.matmul_plain_zero none l r j

/-- The projection product at an entry. -/
theorem proj_apply (l : FVec Ideal S400x128 .bf16) (r : FVec Ideal S128x128 .bf16) (j : S400x128.Idx) :
    matmul dot_S400x128_S128x128_S400x128_1_0_0_1_n_n none l r (constant S400x128 .f32 0x00000000#32) j
      = ∑ k : Fin 128, (l (ix2 (j 0) k) : EReal) * (r (ix2 k (j 1)) : EReal) := by
  rw [dims_proj]
  exact Cert.LibPlainDot.matmul_plain_zero none l r j

/-- The bias row spread down the 400 rows reads the row at the column. -/
theorem bias_apply (x3 : Vec Ideal S1x128 .f32) (p : Fin 400) (q : Fin 128) :
    broadcastTo S400x128 (shapeCast S1x128 x3 shapeCasts_S1x128_S1x128) broadcasts_S1x128_S400x128 (ix2 p q)
      = x3 (ix2 (0 : Fin 1) q) := by
  rw [shapeCast_self]
  exact broadcastTo_apply x3 broadcasts_S1x128_S400x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- The narrowed copy of the feature array is the feature array. -/
theorem pay1_apply (x1 : Vec Ideal S10000x128 .f32) (j : S10000x128.Idx) : k0_pay1 (F := Ideal) x1 j = x1 j := by
  unfold k0_pay1
  rw [shapeCast_self]
  rfl

/-- The pre-activation block the body forms: the two products, then the bias row. -/
def preact (x0 : Vec Ideal S400x10000 .f32) (xs : FVec Ideal S10000x128 .bf16) (x2 : Vec Ideal S128x128 .f32)
    (x3 : Vec Ideal S1x128 .f32) : FVec Ideal S400x128 .f32 :=
  addf (matmul dot_S400x128_S128x128_S400x128_1_0_0_1_n_n none
      (truncf .bf16 (matmul dot_S400x10000_S10000x128_S400x128_1_0_0_1_n_n none (truncf .bf16 x0 bitsLt_bf16_f32) xs
        (constant S400x128 .f32 0x00000000#32)) bitsLt_bf16_f32)
      (truncf .bf16 x2 bitsLt_bf16_f32) (constant S400x128 .f32 0x00000000#32))
    (broadcastTo S400x128 (shapeCast S1x128 x3 shapeCasts_S1x128_S1x128) broadcasts_S1x128_S400x128)

/-- Its entry (p, q):  Σ_k (Σ_l a(p, l) · s(l, k)) · w(k, q) + β(0, q). -/
theorem preact_apply (x0 : Vec Ideal S400x10000 .f32) (xs : FVec Ideal S10000x128 .bf16) (x2 : Vec Ideal S128x128 .f32)
    (x3 : Vec Ideal S1x128 .f32) (p : Fin 400) (q : Fin 128) :
    preact x0 xs x2 x3 (ix2 p q)
      = (∑ k : Fin 128, (∑ l : Fin 10000, (x0 (ix2 p l) : EReal) * (xs (ix2 l k) : EReal)) * (x2 (ix2 k q) : EReal))
          + (x3 (ix2 (0 : Fin 1) q) : EReal) := by
  unfold preact
  rw [addf_apply]
  refine congrArg₂ (· + ·) ?_ (bias_apply x3 p q)
  refine (proj_apply _ _ (ix2 p q)).trans ?_
  refine Finset.sum_congr rfl fun k _ => ?_
  refine congrArg (· * (x2 (ix2 k q) : EReal)) ?_
  exact agg_apply _ _ (ix2 p k)

/-- The output block's entry (p, q): the rectifier of the pre-activation, plus the residual. -/
theorem pay2_apply (x0 : Vec Ideal S400x10000 .f32) (xs : Vec Ideal S10000x128 .bf16) (x2 : Vec Ideal S128x128 .f32)
    (x3 : Vec Ideal S1x128 .f32) (xr : Vec Ideal S400x128 .f32) (p : Fin 400) (q : Fin 128) :
    k0_pay2 (F := Ideal) x0 xs x2 x3 xr (ix2 p q)
      = Cert.Gcn.act ((∑ k : Fin 128, (∑ l : Fin 10000, (x0 (ix2 p l) : EReal) * (xs (ix2 l k) : EReal)) * (x2 (ix2 k q) : EReal))
          + (x3 (ix2 (0 : Fin 1) q) : EReal)) (xr (ix2 p q)) := by
  have key : k0_pay2 (F := Ideal) x0 xs x2 x3 xr (ix2 p q) = Cert.Gcn.act (preact x0 xs x2 x3 (ix2 p q)) (xr (ix2 p q)) := rfl
  rw [key, preact_apply]

end Cert.KernelIdeal.Payload

end
-- ==== Proof.KernelValue.lean ====
/-
  The fused layer kernel's result array, as one function of the four inputs.

  Point t of the 25-point grid owns rows 400·t … 400·t + 399. The buffer the kernel keeps between points holds, after
  every point, the narrowed copy of the whole feature array (induction on the point: stored at the first, untouched
  afterwards), so every point computes its rows of
      act( Σ_k (Σ_l adj(r, l) · x(l, k)) · W(k, q) + b(q) ) + x(r, q),
  the layer with the triple product bracketed "aggregate first". The 25 row blocks tile the result array.
-/
import proofs.«128039_g48773648614066_cont_8to1_c_1084_13_alg».proof.Proof.Gen.KernelIdeal.Value
import proofs.«128039_g48773648614066_cont_8to1_c_1084_13_alg».proof.Proof.KernelPieces
import proofs.«128039_g48773648614066_cont_8to1_c_1084_13_alg».proof.Proof.Payload
import proofs.«128039_g48773648614066_cont_8to1_c_1084_13_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LayerValue

open Cert.KernelIdeal Cert.KernelIdeal.Gen Cert.KernelIdeal.Pieces

variable (m : (ℓ : Loc nD τ sig) → Buf (Elt Ideal) ℓ) (ρ : Dev nD → PrngReg)

/-- The printed index maps and the residual's row offset over the 25 grid points: the adjacency and output blocks are
    row block t, the other three windows hold their whole arrays, and the residual rows start at 400·t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ k0_off1 (grid0.coords t) (0 : Fin 2) = 400 * t.val ∧ k0_off1 (grid0.coords t) (1 : Fin 2) = 0 :=
  (by decide +kernel : ∀ t : Fin grid0.N, _)

/-- The feature array's window holds the whole array at every point. -/
theorem xblk_eq (c : Dev nD) (t : Fin cfg0.N) : (iblk m c 1 t : Vec Ideal S10000x128 .f32) = V m c main_arg0 := by
  obtain ⟨-, -, e0, e1, -⟩ := idx_facts t
  funext j
  unfold iblk
  rw [View.read_apply]
  show V m c main_arg0 _ = V m c main_arg0 j
  congr 1
  funext a
  apply Fin.ext
  match a with
  | ⟨0, _⟩ => show win0_1.index t (0 : Fin 2) * 10000 + 1 * (j 0).val = (j 0).val; omega
  | ⟨1, _⟩ => show win0_1.index t (1 : Fin 2) * 128 + 1 * (j 1).val = (j 1).val; omega

/-- After every point the kept buffer holds the narrowed copy of the feature array: stored at the first point, untouched
    afterwards. -/
theorem kept_eq (c : Dev nD) : ∀ (n : ℕ) (h : n < cfg0.N),
    (outsAt0 m c n h).2 = k0_pay1 (V m c main_arg0 : Vec Ideal S10000x128 .f32)
  | 0, h => by
    rw [outsAt0_A m c ⟨0, h⟩ rfl]
    dsimp only
    refine (sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ (iblk m c 0 ⟨0, h⟩) (iblk m c 1 ⟨0, h⟩) (iblk m c 2 ⟨0, h⟩) (iblk m c 3 ⟨0, h⟩)).trans ?_
    rw [xblk_eq]
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact kept_eq c n _

/-- What a point leaves in the output's staging buffer: the body's arithmetic on the point's adjacency block, the kept
    copy, the weights, the bias row and the residual rows of the feature array. -/
theorem out_eq (c : Dev nD) (t : Fin cfg0.N) :
    (outsAt0 m c t.val t.isLt).1 = k0_pay2 (iblk m c 0 t) (k0_pay1 (V m c main_arg0 : Vec Ideal S10000x128 .f32))
      (iblk m c 2 t) (iblk m c 3 t) (xrows (grid0.coords t) (V m c main_arg0)) := by
  by_cases h0 : t.val % 25 = 0
  · rw [outsAt0_A m c t h0]
    dsimp only
    refine (out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans ?_
    rw [xblk_eq]
  · rw [outsAt0_B m c t h0]
    dsimp only
    refine (out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) _).trans ?_
    rw [kept_eq, xblk_eq]

/-- One entry of a point's block is the layer's entry, given what the point's loaded arrays are in terms of the inputs. -/
theorem point_entry (x0 : Vec Ideal S400x10000 .f32) (xs : Vec Ideal S10000x128 .bf16) (x2 : Vec Ideal S128x128 .f32)
    (x3 : Vec Ideal S1x128 .f32) (xr : Vec Ideal S400x128 .f32)
    (X : Cert.Gcn.SX.Idx → EReal) (A : Cert.Gcn.SA.Idx → EReal) (W : Cert.Gcn.SW.Idx → EReal) (B : Cert.Gcn.SB.Idx → EReal)
    (p : Fin 400) (q : Fin 128) (r : Fin 10000)
    (h0 : ∀ l : Fin 10000, x0 (ix2 p l) = A (ix2 r l))
    (hs : ∀ (l : Fin 10000) (k : Fin 128), xs (ix2 l k) = X (ix2 l k))
    (h2 : ∀ k : Fin 128, x2 (ix2 k q) = W (ix2 k q))
    (h3 : x3 (ix2 (0 : Fin 1) q) = B (ix1 q))
    (hr : xr (ix2 p q) = X (ix2 r q)) :
    k0_pay2 (F := Ideal) x0 xs x2 x3 xr (ix2 p q) = Cert.Gcn.layerAgg X A W B (ix2 r q) := by
  rw [Payload.pay2_apply, h3, hr]
  show Cert.Gcn.act _ _ = Cert.Gcn.act (Cert.Gcn.aggProj X A W r q + B (ix1 q)) (X (ix2 r q))
  refine congrArg (fun y => Cert.Gcn.act (y + B (ix1 q)) (X (ix2 r q))) ?_
  unfold Cert.Gcn.aggProj
  refine Finset.sum_congr rfl fun k _ => ?_
  rw [h2 k]
  refine congrArg (· * W (ix2 k q)) ?_
  exact Finset.sum_congr rfl fun l _ => by rw [h0 l, hs l k]

/-- The bias row the region finds is the bias vector laid out as one row. -/
theorem bias_row (c : Dev nD) (q : Fin 128) : (V m c main_v0 : S1x128.Idx → EReal) (ix2 (0 : Fin 1) q) = (m ((c : Thread nD τ).loc main_arg3)) (ix1 q) := by
  have e : (V m c main_v0 : S1x128.Idx → EReal) = shapeCast S1x128 (m ((c : Thread nD τ).loc main_arg3)) shapeCasts_S128_S1x128 := by
    dsimp only [V, hostOps0]; after_results; rfl
  rw [e]
  exact shapeCast_apply _ shapeCasts_S128_S1x128 (ix2 (0 : Fin 1) q) (ix1 q) (by
    rw [Shape.rowMajor_val_one, Shape.rowMajor_val_two]
    show q.val = (0 : Nat) * 128 + q.val
    omega)

/-- The layer as a function of the four input arrays as launched. -/
def layer (c : Dev nD) : Buf (Elt Ideal) ((c : Thread nD τ).loc main_v1) :=
  Cert.Gcn.layerAgg (m ((c : Thread nD τ).loc main_arg0)) (m ((c : Thread nD τ).loc main_arg1)) (m ((c : Thread nD τ).loc main_arg2)) (m ((c : Thread nD τ).loc main_arg3))

/-- What point t writes back is block t of the layer. -/
theorem flushed_eq (c : Dev nD) (t : Fin cfg0.N) :
    (dats m 0 c).flushed 4 t = ((cfg0.win 4).blk t).view.read (Elt Ideal) (layer m c) := by
  rw [Value.flushed4, out_eq]
  obtain ⟨a0, a1, -, -, w0, w1, b0, b1, o0, o1, r0, r1⟩ := idx_facts t
  have hN : t.val < 25 := lt_of_lt_of_eq t.isLt (show cfg0.N = 25 from N_0)
  refine funext fun (y : S400x128.Idx) => ?_
  obtain ⟨p, q, rfl⟩ : ∃ (p : Fin 400) (q : Fin 128), y = ix2 p q := ⟨y 0, y 1, eq_ix2 y⟩
  have hp : p.val < 400 := p.isLt
  have hemb : ((cfg0.win 4).blk t).view.emb (ix2 p q) = ix2 (⟨400 * t.val + p.val, by omega⟩ : Fin 10000) q := by
    funext a
    apply Fin.ext
    match a with
    | ⟨0, _⟩ => show win0_4.index t (0 : Fin 2) * 400 + 1 * p.val = 400 * t.val + p.val; omega
    | ⟨1, _⟩ => show win0_4.index t (1 : Fin 2) * 128 + 1 * q.val = q.val; omega
  show k0_pay2 (F := Ideal) (iblk m c 0 t) _ (iblk m c 2 t) (iblk m c 3 t) (xrows (grid0.coords t) (V m c main_arg0)) (ix2 p q)
    = layer m c (((cfg0.win 4).blk t).view.emb (ix2 p q))
  rw [hemb]
  refine point_entry _ _ _ _ _ (m ((c : Thread nD τ).loc main_arg0)) (m ((c : Thread nD τ).loc main_arg1)) (m ((c : Thread nD τ).loc main_arg2)) (m ((c : Thread nD τ).loc main_arg3)) p q _ ?_ ?_ ?_ ?_ ?_
  · intro l
    show V m c main_arg1 (((cfg0.win 0).blk t).view.emb (ix2 p l)) = _
    rw [V_main_arg1]
    congr 1
    funext a
    apply Fin.ext
    match a with
    | ⟨0, _⟩ => show win0_0.index t (0 : Fin 2) * 400 + 1 * p.val = 400 * t.val + p.val; omega
    | ⟨1, _⟩ => show win0_0.index t (1 : Fin 2) * 10000 + 1 * l.val = l.val; omega
  · intro l k
    rw [Payload.pay1_apply, V_main_arg0]
  · intro k
    show V m c main_arg2 (((cfg0.win 2).blk t).view.emb (ix2 k q)) = _
    rw [V_main_arg2]
    congr 1
    funext a
    apply Fin.ext
    match a with
    | ⟨0, _⟩ => show win0_2.index t (0 : Fin 2) * 128 + 1 * k.val = k.val; omega
    | ⟨1, _⟩ => show win0_2.index t (1 : Fin 2) * 128 + 1 * q.val = q.val; omega
  · show V m c main_v0 (((cfg0.win 3).blk t).view.emb (ix2 (0 : Fin 1) q)) = _
    refine Eq.trans (congrArg (V m c main_v0) ?_) (bias_row m c q)
    funext a
    apply Fin.ext
    match a with
    | ⟨0, _⟩ => show win0_3.index t (0 : Fin 2) * 1 + 1 * 0 = 0; omega
    | ⟨1, _⟩ => show win0_3.index t (1 : Fin 2) * 128 + 1 * q.val = q.val; omega
  · show V m c main_arg0 _ = _
    rw [V_main_arg0]
    congr 1
    funext a
    apply Fin.ext
    match a with
    | ⟨0, _⟩ => show k0_off1 (grid0.coords t) (0 : Fin 2) + 1 * p.val = 400 * t.val + p.val; omega
    | ⟨1, _⟩ => show k0_off1 (grid0.coords t) (1 : Fin 2) + 1 * q.val = q.val; omega

/-- An index of the result array is in point t's block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1).slice (win0_4.rect t)).set ↔ _
  rw [View.set_slice_whole, Rect.mem_set_unit]
  exact Iff.rfl

/-- The 25 row blocks tile the result array (row r lies in block r / 400), so it ends holding the layer. -/
theorem final (c : Dev nD) : (dats m 0 c).arrAt 4 cfg0.N = layer m c :=
  (dats m 0 c).arrAt_eq_of_cover 4 (layer m c) (fun t _ => flushed_eq m c t) fun i => by
    have hi0 : (i 0).val < 10000 := (i 0).isLt
    have hi1 : (i 1).val < 128 := (i 1).isLt
    have hN : cfg0.N = 25 := N_0
    have ht : (i 0).val / 400 < cfg0.N := by omega
    obtain ⟨-, -, -, -, -, -, -, -, o0, o1, -, -⟩ := idx_facts ⟨(i 0).val / 400, ht⟩
    refine ⟨⟨(i 0).val / 400, ht⟩, flush0_4 _, ?_⟩
    rw [mem_blk]
    intro a
    match a with
    | ⟨0, _⟩ =>
      show win0_4.index ⟨(i 0).val / 400, ht⟩ (0 : Fin 2) * 400 ≤ (i 0).val ∧ (i 0).val < win0_4.index ⟨(i 0).val / 400, ht⟩ (0 : Fin 2) * 400 + 400
      rw [o0]; dsimp only; omega
    | ⟨1, _⟩ =>
      show win0_4.index ⟨(i 0).val / 400, ht⟩ (1 : Fin 2) * 128 ≤ (i 1).val ∧ (i 1).val < win0_4.index ⟨(i 0).val / 400, ht⟩ (1 : Fin 2) * 128 + 128
      rw [o1]; omega

/-- The kernel's run, read: the result array ends holding the layer of the launched inputs, which are unchanged. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.LayerValue

end
-- ==== Proof.RefValue.lean ====
/-
  The reference's result, read entry by entry, is the layer with the product bracketed "project first".

  The reference computes  h = x · W  (10000 × 128), then  adj · h,  adds the bias row b along every row, applies the leaky
  rectifier (keep y where y ≥ 0, else c · y, c the slope word) and adds x back.  Both products carry the plain dimension
  numbers "rows × contraction times contraction × columns", so at (p, q) the outer one is  Σ_l adj(p, l) · h(l, q)  and the
  inner one  h(l, q) = Σ_k x(l, k) · W(k, q);  the bias row reads b(q) at every (p, q); the two scalar constants read their
  words everywhere; every other operation acts entry by entry.  What is left is the definition of `layerProj`.
-/
import proofs.«128039_g48773648614066_cont_8to1_c_1084_13_alg».proof.Proof.Spec
import proofs.«128039_g48773648614066_cont_8to1_c_1084_13_alg».proof.Proof.LibPlainDot
import proofs.«128039_g48773648614066_cont_8to1_c_1084_13_alg».proof.Proof.Gen.ReferenceIdeal.Run

noncomputable section

namespace Cert.Gcn.Ref

open Cert.ReferenceIdeal Cert.ReferenceIdeal.Gen Idealize.ShloMosaic Idealize.ShloMosaic.ValueIdx

/-- The projection's dimension numbers are the plain ones for 10000 × 128 times 128 × 128. -/
theorem dotXW_eq : dot_S10000x128_S128x128_S10000x128_1_0_0_1_n_n = DotDims.plain 10000 128 128 := rfl

/-- The aggregation's dimension numbers are the plain ones for 10000 × 10000 times 10000 × 128. -/
theorem dotAH_eq : dot_S10000x10000_S10000x128_S10000x128_1_0_0_1_n_n = DotDims.plain 10000 10000 128 := rfl

/-- The projection  x · W  at (l, q):  Σ_k x(l, k) · W(k, q). -/
theorem proj_apply (x : FVec Ideal S10000x128 .f32) (W : FVec Ideal S128x128 .f32) (l : Fin 10000) (q : Fin 128) :
    Host.dotGeneral dot_S10000x128_S128x128_S10000x128_1_0_0_1_n_n none x W (ix2 l q) = ∑ k : Fin 128, x (ix2 l k) * W (ix2 k q) := by
  rw [dotXW_eq]
  exact Cert.LibPlainDot.dotGeneral_plain none .single x W (ix2 l q)

/-- The aggregation  adj · h  at (p, q):  Σ_l adj(p, l) · h(l, q). -/
theorem agg_apply (adj : FVec Ideal S10000x10000 .f32) (h : FVec Ideal S10000x128 .f32) (p : Fin 10000) (q : Fin 128) :
    Host.dotGeneral dot_S10000x10000_S10000x128_S10000x128_1_0_0_1_n_n none adj h (ix2 p q) = ∑ l : Fin 10000, adj (ix2 p l) * h (ix2 l q) := by
  rw [dotAH_eq]
  exact Cert.LibPlainDot.dotGeneral_plain none .single adj h (ix2 p q)

/-- The pre-activation at (p, q):  Σ_l adj(p, l) · (Σ_k x(l, k) · W(k, q)) + b(q). -/
theorem pre_apply (x : FVec Ideal S10000x128 .f32) (adj : FVec Ideal S10000x10000 .f32) (W : FVec Ideal S128x128 .f32) (b : FVec Ideal S128 .f32)
    (p : Fin 10000) (q : Fin 128) :
    (addf (Host.dotGeneral dot_S10000x10000_S10000x128_S10000x128_1_0_0_1_n_n none adj (Host.dotGeneral dot_S10000x128_S128x128_S10000x128_1_0_0_1_n_n none x W)) (broadcastInDim S10000x128 ![0, 1] bcast_S1x128_S10000x128_0_1 (broadcastInDim S1x128 ![1] bcast_S128_S1x128_1 b))) (ix2 p q)
      = Cert.Gcn.projAgg x adj W p q + b (ix1 q) := by
  rw [addf_apply, agg_apply, Cert.LibPlainDot.rowBroadcastInDim_apply]
  refine congrArg (· + b (ix1 q)) ?_
  exact Finset.sum_congr rfl fun l _ => congrArg (adj (ix2 p l) * ·) (proj_apply x W l q)

/-- The reference's result term is the layer, product bracketed "project first". -/
theorem result_eq (x : FVec Ideal S10000x128 .f32) (adj : FVec Ideal S10000x10000 .f32) (W : FVec Ideal S128x128 .f32) (b : FVec Ideal S128 .f32) :
    addf (select (cmpf .oge (addf (Host.dotGeneral dot_S10000x10000_S10000x128_S10000x128_1_0_0_1_n_n none adj (Host.dotGeneral dot_S10000x128_S128x128_S10000x128_1_0_0_1_n_n none x W)) (broadcastInDim S10000x128 ![0, 1] bcast_S1x128_S10000x128_0_1 (broadcastInDim S1x128 ![1] bcast_S128_S1x128_1 b))) (broadcastInDim S10000x128 ![] bcast_S_S10000x128 (constant (F := Ideal) S_ .f32 0x00000000#32))) (addf (Host.dotGeneral dot_S10000x10000_S10000x128_S10000x128_1_0_0_1_n_n none adj (Host.dotGeneral dot_S10000x128_S128x128_S10000x128_1_0_0_1_n_n none x W)) (broadcastInDim S10000x128 ![0, 1] bcast_S1x128_S10000x128_0_1 (broadcastInDim S1x128 ![1] bcast_S128_S1x128_1 b))) (mulf (broadcastInDim S10000x128 ![] bcast_S_S10000x128 (constant (F := Ideal) S_ .f32 0x3C23D70A#32)) (addf (Host.dotGeneral dot_S10000x10000_S10000x128_S10000x128_1_0_0_1_n_n none adj (Host.dotGeneral dot_S10000x128_S128x128_S10000x128_1_0_0_1_n_n none x W)) (broadcastInDim S10000x128 ![0, 1] bcast_S1x128_S10000x128_0_1 (broadcastInDim S1x128 ![1] bcast_S128_S1x128_1 b))))) x
      = Cert.Gcn.layerProj x adj W b := by
  funext i
  obtain ⟨p, q, rfl⟩ : ∃ (p : Fin 10000) (q : Fin 128), i = ix2 p q := ⟨i 0, i 1, eq_ix2 i⟩
  have hP := pre_apply x adj W b p q
  generalize addf (Host.dotGeneral dot_S10000x10000_S10000x128_S10000x128_1_0_0_1_n_n none adj (Host.dotGeneral dot_S10000x128_S128x128_S10000x128_1_0_0_1_n_n none x W)) (broadcastInDim S10000x128 ![0, 1] bcast_S1x128_S10000x128_0_1 (broadcastInDim S1x128 ![1] bcast_S128_S1x128_1 b)) = P at hP ⊢
  show Cert.Gcn.act (P (ix2 p q)) (x (ix2 p q)) = Cert.Gcn.act (Cert.Gcn.projAgg x adj W p q + b (ix1 q)) (x (ix2 p q))
  rw [hP]

end Cert.Gcn.Ref

end
-- ==== Proof.Finite.lean ====
/-
  Finite inputs are real-valued.

  The precondition is the conjunction, over the four input arrays, of "every entry v satisfies |v| < +∞", each array's
  clause being an and-reduction over all of its axes of the entrywise comparison of |v| with the single-precision word
  0x7F800000, which denotes +∞.  On the extended reals |v| = max v (-v), and max v (-v) < +∞ rules out both v = +∞ and
  v = -∞ (in either case the maximum is +∞), so v is a real number.  Hence, when the precondition evaluates to true, the
  arrays x, adj and W have only real entries.
-/
import proofs.«128039_g48773648614066_cont_8to1_c_1084_13_alg».proof.Proof.Spec
import proofs.«128039_g48773648614066_cont_8to1_c_1084_13_alg».proof.Proof.Gen.Pre_finite_inputs
import Idealize.ShloMosaic.Lib.ReduceAll
import Idealize.ShloMosaic.PureOps.Ideal

noncomputable section

namespace Cert.Gcn

open Idealize.ShloMosaic Idealize.ShloMosaic.ValueIdx

/-- The rank-0 shape has exactly one index. -/
theorem subsingleton_idx_rank0 : Subsingleton Cert.Pre_finite_inputs.S_.Idx :=
  ⟨fun _ _ => funext fun d => d.elim0⟩

/-- The single-precision word 0x7F800000 (sign 0, exponent all ones, significand 0) denotes +∞. -/
theorem ofBits_f32_inf : Ideal.ofBits .f32 0x7F800000#32 = (⊤ : EReal) := by
  simp [Ideal.ofBits, Ideal.ieee]

/-- An extended real whose absolute value max v (-v) is strictly below +∞ is a real number:
    at v = -∞ and at v = +∞ the maximum is +∞, which is not below itself. -/
theorem exists_real_of_abs_lt_top (v : EReal) (h : Ideal.cmp .olt (max v (-v)) ⊤ = 1#1) :
    ∃ r : ℝ, v = (r : EReal) := by
  induction v using EReal.rec with
  | bot => simp [Ideal.cmp] at h
  | coe r => exact ⟨r, rfl⟩
  | top => simp [Ideal.cmp] at h

/-- One clause of the precondition: if the and-reduction over all axes of the entrywise test |v i| < c i, with every
    c i the word for +∞, comes out true, then every entry of v is a real number. -/
theorem realValued_of_reduce_all {s : Shape} (v c : FVec Ideal s .f32)
    (hc : ∀ i, c i = Ideal.ofBits .f32 0x7F800000#32)
    {axes : List (Fin s.rank)} (hr : s.ReducesTo axes Cert.Pre_finite_inputs.S_)
    (init : IVec Cert.Pre_finite_inputs.S_ 1) (hu : 0 < Cert.Pre_finite_inputs.S_.numel)
    (e : Host.reduce IntOp.andi (cmpf .olt (Host.absf v) c) init hr hu ix0 = 1#1) : RealValued v := by
  haveI := subsingleton_idx_rank0
  intro i
  -- the reduction is true, so the test is true at the entry i
  have hi := Host.reduce_andi_all _ init hr hu ix0 e i
  refine exists_real_of_abs_lt_top (v i) ?_
  rw [← ofBits_f32_inf, ← hc i]
  exact hi

/-- When the finiteness precondition holds, x, adj and W have only real entries. -/
theorem realValued_of_pre (x : FVec Ideal SX .f32) (adj : FVec Ideal SA .f32) (W : FVec Ideal SW .f32) (b : FVec Ideal SB .f32)
    (h : Cert.Pre_finite_inputs.fn (F := Ideal) x adj W b = fun _ => 1#1) :
    RealValued x ∧ RealValued adj ∧ RealValued W := by
  have h0 := congrFun h ValueIdx.ix0
  dsimp only [Cert.Pre_finite_inputs.fn, Cert.Pre_finite_inputs.fn_part1] at h0
  -- the predicate is ((x-clause ∧ adj-clause) ∧ W-clause) ∧ b-clause; the last clause is not needed
  obtain ⟨h123, -⟩ := IntOp.andi_eq_one.1 h0
  obtain ⟨h12, h3⟩ := IntOp.andi_eq_one.1 h123
  obtain ⟨h1, h2⟩ := IntOp.andi_eq_one.1 h12
  exact ⟨realValued_of_reduce_all x _ (fun _ => rfl) _ _ _ h1, realValued_of_reduce_all adj _ (fun _ => rfl) _ _ _ h2,
    realValued_of_reduce_all W _ (fun _ => rfl) _ _ _ h3⟩

end Cert.Gcn

end
-- ==== Proof.lean ====
/-
  The graph-convolution layer  out = act(adj · x · W + b) + x  (act the leaky rectifier), computed by one fused kernel
  that walks 25 row blocks of adj and brackets the product as (adj · x) · W, against the reference that brackets it as
  adj · (x · W).

  Over the extended reals narrowing a float is the identity and a matrix product is a finite sum, so entry (r, q) of the
  kernel's result is  act(Σ_k (Σ_l adj(r, l) x(l, k)) W(k, q) + b(q)) + x(r, q)  and of the reference's
  act(Σ_l adj(r, l) (Σ_k x(l, k) W(k, q)) + b(q)) + x(r, q).  The two double sums agree because every entry of x, adj
  and W is a real number (the precondition): distributivity and the exchange of two finite sums hold on the reals.
  Both sides apply the same rectifier, with the same slope word, and add the same residual.
-/
import proofs.«128039_g48773648614066_cont_8to1_c_1084_13_alg».proof.Defs
import proofs.«128039_g48773648614066_cont_8to1_c_1084_13_alg».proof.Proof.Gen.Kernel
import proofs.«128039_g48773648614066_cont_8to1_c_1084_13_alg».proof.Proof.Gen.Kernel.Frame
import proofs.«128039_g48773648614066_cont_8to1_c_1084_13_alg».proof.Proof.Gen.KernelIdeal
import proofs.«128039_g48773648614066_cont_8to1_c_1084_13_alg».proof.Proof.Gen.KernelIdeal.Frame
import proofs.«128039_g48773648614066_cont_8to1_c_1084_13_alg».proof.Proof.Gen.ReferenceIdeal
import proofs.«128039_g48773648614066_cont_8to1_c_1084_13_alg».proof.Proof.Gen.ReferenceIdeal.Run
import proofs.«128039_g48773648614066_cont_8to1_c_1084_13_alg».proof.Proof.Gen.Pre_finite_inputs
import proofs.«128039_g48773648614066_cont_8to1_c_1084_13_alg».proof.Proof.KernelValue
import proofs.«128039_g48773648614066_cont_8to1_c_1084_13_alg».proof.Proof.RefValue
import proofs.«128039_g48773648614066_cont_8to1_c_1084_13_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- The kernel's result array ends holding the layer bracketed "aggregate first", the reference's the layer bracketed
    "project first", of inputs that agree and are real-valued: the same array. -/
theorem algebraic : Cert.algebraic_KernelIdeal_ReferenceIdeal := by
  intro m ρ m' ρ' hpre hagree
  refine ⟨fun c => Cert.KernelIdeal.LayerValue.layer m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := hagree c
  rw [e0, e1, e2, e3, Cert.Gcn.Ref.result_eq]
  obtain ⟨hx, ha, hW⟩ := Cert.Gcn.realValued_of_pre _ _ _ _ (hpre c)
  exact (Cert.Gcn.layerAgg_eq_layerProj _ hx ha hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
